-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x3 : Shape := ⟨2, ![800000, 3]⟩
abbrev S64x64 : Shape := ⟨2, ![64, 64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S64x64 : S_.BroadcastsInDim S64x64 (![] : Fin 0 → Fin S64x64.rank)
  reducesTo_S64x64_S_d0_1 : S64x64.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : IVec S1x800000 32 := (extractStridedSlice S1x800000 ![0, 0] · slices_S2x800000_S1x800000_0_0) main_arg1
  let main_v20 : IVec S800000 32 := shapeCast S800000 main_v19 shapeCasts_S1x800000_S800000
  let main_c_6 : IVec S_ 32 := constantI S_ 32 0#32
  let main_v21 : IVec S800000 32 := broadcastInDim S800000 ![] bcast_S_S800000 main_c_6
  let main_v22 : IVec S800000 1 := cmpi .sge main_v20 main_v21
  let main_c_7 : IVec S_ 1 := constantI S_ 1 1#1
  let main_v23 : IVec S_ 1 := (fun x v => Host.reduce IntOp.andi x v reducesTo_S800000_S_d0 h_S_) main_v22 main_c_7
  let main_v24 : IVec S_ 1 := andi main_v18 main_v23
  main_v24

def fn {F : FTy → Type} [FloatOps F] (main_arg0 : FVec F S50000x64 .f32) (main_arg1 : IVec S2x800000 32) (main_arg2 : FVec F S800000x3 .f32) (main_arg3 : FVec F S64x64 .f32) (main_arg4 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_v13 main_v16
-- ==== Kernel.lean ====
abbrev S50000x64 : Shape := ⟨2, ![50000, 64]⟩
abbrev S2x800000 : Shape := ⟨2, ![2, 800000]⟩
abbrev S800000x3 : Shape := ⟨2, ![800000, 3]⟩
abbrev S64x64 : Shape := ⟨2, ![64, 64]⟩
abbrev S64x128 : Shape := ⟨2, ![64, 128]⟩
abbrev S50000x128 : Shape := ⟨2, ![50000, 128]⟩
abbrev S5000x64 : Shape := ⟨2, ![5000, 64]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩

abbrev nBuf : Space → Nat
  | .hbm => 29
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x3, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x128, .f32⟩
  | .hbm, ⟨8, _⟩ => ⟨S50000x128, .f32⟩
  | .hbm, ⟨9, _⟩ => ⟨S50000x64, .f32⟩
  | .hbm, ⟨10, _⟩ => ⟨S50000x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S800000x3, .f32⟩
  | .hbm, ⟨16, _⟩ => ⟨S_, .f32⟩
  | .hbm, ⟨17, _⟩ => ⟨S800000, .f32⟩
  | .hbm, ⟨18, _⟩ => ⟨S800000x1, .f32⟩
  | .hbm, ⟨19, _⟩ => ⟨S800000x1, .f32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x64_S64x64_1_0 : S64x64.Transposes [1, 0] S64x64
  concatenates_S64x64_S64x64_S64x128_d1 : Shape.Concatenates [S64x64, S64x64] S64x128 1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  slices_S50000x128_S50000x64_0_0 : S50000x128.Slices ![0, 0] S50000x64
  slices_S50000x128_S50000x64_0_64 : S50000x128.Slices ![0, 64] S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S800000x3_S800000_d1 : S800000x3.ReducesTo [1] S800000
  h_S_ : 0 < S_.numel
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S5000x64_S64x128_S5000x128_1_0_0_1_n_n_wf : DotDims.WF S5000x64 S64x128 S5000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x3 : Shape := ⟨2, ![800000, 3]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩

abbrev nBuf : Space → Nat
  | .hbm => 32
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x3, .f32⟩
  | .hbm, ⟨3, _⟩ => ⟨S64x64, .f32⟩
  | .hbm, ⟨4, _⟩ => ⟨S64x64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S800000x64, .f32⟩
  | .hbm, ⟨19, _⟩ => ⟨S800000x3, .f32⟩
  | .hbm, ⟨20, _⟩ => ⟨S_, .f32⟩
  | .hbm, ⟨21, _⟩ => ⟨S800000, .f32⟩
  | .hbm, ⟨22, _⟩ => ⟨S800000x1, .f32⟩
  | .hbm, ⟨23, _⟩ => ⟨S800000x1, .f32⟩
  | .hbm, ⟨24, _⟩ => ⟨S800000x64, .f32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S50000x64, .f32⟩
  | .hbm, ⟨31, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x64_S64x64_S800000x64_1_1_0_0_n_n_wf : DotDims.WF S800000x64 S64x64 S800000x64 [1] [1] [0] [0] [] []
  scatter_S50000x64_S800000x1_S800000x64_1_0_0_1_wf : ScatterDims.WF S50000x64 S800000x1 S800000x64 [1] [0] [0] 1
  dot_S50000x64_S64x64_S50000x64_1_1_0_0_n_n_wf : DotDims.WF S50000x64 S64x64 S50000x64 [1] [1] [0] [0] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_1_0_0_n_n : DotDims S800000x64 S64x64 S800000x64 where
  lhsContracting := [1]
  rhsContracting := [1]
  lhsNonContracting := [0]
  rhsNonContracting := [0]
  lhsBatch := []
  rhsBatch := []
  wf := dot_S800000x64_S64x64_S800000x64_1_1_0_0_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf

class Facts : Prop extends Facts₀ where

variable [Facts]
-- ==== Proof.KernelBlock.lean ====
/-
  One grid point's product.  The body loads its block of `x` (5000 rows of 64) and the whole weight matrix (64 × 128),
  narrows both to bf16 — the identity on extended reals —, and stores their matrix product accumulated from zero: at
  `(p, q)` the sum over the 64 input channels `k` of `x[p, k] · w[k, q]`.
-/
import proofs.«413738_j53953379172480_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Proj

open Cert.KernelIdeal Cert.KernelIdeal.Gen Idealize.ShloMosaic Idealize.ShloMosaic.ValueIdx
open scoped BigOperators

/-- The left operand's row is the output's row … -/
theorem lhs_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … its column the contracted channel; -/
theorem lhs_col (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right operand's row is the contracted channel … -/
theorem rhs_row (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and its column the output's column. -/
theorem rhs_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The stored block at `(p, q)`: `∑ k, x[p, k] · w[k, q]` over the loaded blocks. -/
theorem pay_apply (x0 : Vec Ideal S5000x64 .f32) (x1 : Vec Ideal S64x128 .f32) (p : Fin 5000) (q : Fin 128) :
    k0_pay1 (F := Ideal) x0 x1 (ix2 p q) = ∑ k : Fin 64, x0 (ix2 p k) * x1 (ix2 k q) := by
  unfold k0_pay1
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs_row _ _).trans hk
    | ⟨1, _⟩ => exact rhs_col _ _)
  rw [el, er, shapeCast_self]
  rfl

end Cert.KernelIdeal.Proj

end
-- ==== Proof.KernelArray.lean ====
/-
  The region's result array.  The grid has ten points; point `t` reads rows `5000·t … 5000·t + 4999` of `x` and the whole
  64 × 128 weight matrix, and writes the same rows of the 50000 × 128 result.  Every row lies in exactly one point's block
  (the one numbered `row / 5000`), so after the region the array is the whole product: at `(n, j)` the sum over the 64
  input channels `k` of `x[n, k] · w[k, j]`.
-/
import proofs.«413738_j53953379172480_3_alg».proof.Proof.Gen.KernelIdeal.Frame
import proofs.«413738_j53953379172480_3_alg».proof.Proof.KernelBlock

set_option maxRecDepth 16384

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-- The whole product of a 50000 × 64 array and a 64 × 128 matrix, index by index. -/
def G (x : FVec Ideal S50000x64 .f32) (w : FVec Ideal S64x128 .f32) : FVec Ideal S50000x128 .f32 :=
  fun i => ∑ k : Fin 64, x (ix2 (⟨(i 0).val, (i 0).isLt⟩ : Fin 50000) k) * w (ix2 k (⟨(i 1).val, (i 1).isLt⟩ : Fin 128))

theorem G_apply (x : FVec Ideal S50000x64 .f32) (w : FVec Ideal S64x128 .f32) (n : Fin 50000) (j : Fin 128) :
    G x w (ix2 n j) = ∑ k : Fin 64, x (ix2 n k) * w (ix2 k j) := rfl

/-- The printed index maps over the ten points: the `x` window and the result window move together down the rows, block
    number = point number; neither moves across columns; the weight window stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dats m 0 c).flushed 2 t = ((cfg0.win 2).blk t).view.read (Elt Ideal) (G (V m c main_arg0) (V m c main_v2)) := by
  show (cfg0.win 2).cut (grid0.coords t) ((dats m 0 c).after 2 t) = _
  rw [after0_2]
  unfold out0_2
  rw [View.canon_unit_zero zero_offsets]
  simp only [View.ld_unit_zero (S := S5000x64) zero_offsets, View.ld_unit_zero (S := S64x128) zero_offsets]
  obtain ⟨e0, e1, e2, e3, e4, e5⟩ := idx_facts t
  funext j
  show k0_pay1 (F := Ideal) (iblk m c 0 t) (iblk m c 1 t) j = G (V m c main_arg0) (V m c main_v2) (((cfg0.win 2).blk t).view.emb j)
  revert j
  intro (j : S5000x128.Idx)
  obtain ⟨p, q, rfl⟩ : ∃ (p : Fin 5000) (q : Fin 128), j = ix2 p q := ⟨j 0, j 1, eq_ix2 j⟩
  refine (pay_apply (iblk m c 0 t) (iblk m c 1 t) p q).trans ?_
  unfold G
  refine Finset.sum_congr rfl fun k _ => ?_
  have h0 : iblk m c 0 t (ix2 p k) = V m c main_arg0 (ix2 (⟨((((cfg0.win 2).blk t).view.emb (ix2 p q)) 0).val, ((((cfg0.win 2).blk t).view.emb (ix2 p q)) 0).isLt⟩ : Fin 50000) k) := by
    show V m c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : iblk m c 1 t (ix2 k q) = V m c main_v2 (ix2 k (⟨((((cfg0.win 2).blk t).view.emb (ix2 p q)) 1).val, ((((cfg0.win 2).blk t).view.emb (ix2 p q)) 1).isLt⟩ : Fin 128)) := by
    show V m c main_v2 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  rw [h0, h1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v3).slice (win0_2.rect t)).set ↔ _
  rw [View.set_slice_whole, Rect.mem_set_unit]
  exact Iff.rfl

/-- Every index of the result array is in the block of the point numbered by its row divided by 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < grid0.N; rw [N_0]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product. -/
theorem final (c : Dev nD) : (dats m 0 c).arrAt 2 cfg0.N = G (V m c main_arg0) (V m c main_v2) :=
  (dats m 0 c).arrAt_eq_of_cover 2 (G (V m c main_arg0) (V m c main_v2)) (fun t _ => flushed_eq m c t) cover

end Cert.KernelIdeal.Proj

end
-- ==== Proof.LibRowGather.lean ====
/-
  A row gather read at an index.  `table[idx]` over a rank-2 table `[N, C]` and a vector of `n` row numbers prints as a
  `stablehlo.gather` whose start indices are the `[n, 1]` column of row numbers: the table's row axis is collapsed and
  start-indexed, its column axis is the result's one offset axis (slice sizes `[1, C]`), nothing is batched, and the index
  vector sits on axis 1.  Result element `(e, c)` is then the table at row `idx[e, 0]` — read signed and clamped into
  `[0, N − 1]`, as the gather clamps every start index — and column `c`.
-/
import Idealize.ShloMosaic.Lib.ValueIdx

noncomputable section

namespace Cert.Lib

open Idealize.ShloMosaic Idealize.ShloMosaic.ValueIdx

/-- The one entry of a one-element list. -/
theorem getElem_of_eq_singleton {β : Type} {l : List β} {b : β} (h : l = [b]) (k : Nat) (hk : k < l.length) :
    l[k] = b := by
  subst h
  have hk0 : k = 0 := by simpa using hk
  subst hk0
  rfl

/-- The row a start index names: the word read signed, clamped into `[0, N − 1]`. -/
def clampRow {w : Nat} (N : Nat) (hN : 0 < N) (v : BitVec w) : Fin N := ⟨min v.toInt.toNat (N - 1), by omega⟩

section
variable {N C n w : Nat} (d : GatherDims ⟨2, ![N, C]⟩ ⟨2, ![n, 1]⟩ ⟨2, ![n, C]⟩)
  (hoff : d.offsetDims = [1]) (hcoll : d.collapsedSliceDims = [0]) (hob : d.operandBatchingDims = [])
  (hsim : d.startIndexMap = [0]) (hivd : d.indexVectorDim = 1)
include hoff hcoll hob hsim hivd

/-- The operand's row coordinate: the table's row axis is collapsed (no offset coordinate) and start-indexed, and the
    result's one batch axis, its axis 0, reads the start indices' axis 0. -/
theorem operandIdx_row (idx : IVec ⟨2, ![n, 1]⟩ w) (e : Fin n) (c : Fin C) (hN : 0 < N) :
    (d.operandIdx (ix2 e c) idx (0 : Fin 2)).val = (clampRow N hN (idx (ix2 e (0 : Fin 1)))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 e (0 : Fin 1))).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show Shape.kept _ d.offsetDims = [0]
      rw [hoff]; rfl
    have e0 : ∀ X : Fin 2, X = 0 → ((ix2 e c : (⟨2, ![n, C]⟩ : Shape).Idx) X).val = e.val := fun X hX => by subst hX; rfl
    exact e0 _ (getElem_of_eq_singleton hbd _ _)
  | ⟨1, _⟩ =>
    unfold GatherDims.siIdx
    rw [dif_pos (by rw [hivd])]
    apply Fin.ext
    show List.idxOf (0 : Fin 2) d.startIndexMap = 0
    rw [hsim]; simp

/-- The operand's column coordinate: the table's column axis is neither collapsed nor start-indexed, and is read by the
    result's one offset axis, its axis 1. -/
theorem operandIdx_col (idx : IVec ⟨2, ![n, 1]⟩ w) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; simp
  have hk : (1 : Fin 2) ∈ d.sKept := (d.mem_sKept 1).2 ⟨by rw [hcoll]; simp, hb⟩
  simp only [GatherDims.operandIdx, GatherDims.batchCoord_eq_zero _ _ _ hb, Nat.add_zero, GatherDims.start, dif_neg hm,
    GatherDims.offCoord, dif_pos hk, Nat.zero_add]
  have e1 : ∀ X : Fin 2, X = 1 → ((ix2 e c : (⟨2, ![n, C]⟩ : Shape).Idx) X).val = c.val := fun X hX => by subst hX; rfl
  exact e1 _ (getElem_of_eq_singleton hoff _ _)

/-- THE ROW GATHER AT `(e, c)`: the table at the clamped row `idx[e, 0]` and column `c`.  The hypotheses are the printed
    dimension numbers, each by `rfl` on a program's record. -/
theorem gather_rows {α : Type} (x : (⟨2, ![N, C]⟩ : Shape).Idx → α) (idx : IVec ⟨2, ![n, 1]⟩ w) (e : Fin n) (c : Fin C)
    (hN : 0 < N) :
    Host.gather d x idx (ix2 e c) = x (ix2 (clampRow N hN (idx (ix2 e (0 : Fin 1)))) c) := by
  unfold Host.gather
  congr 1
  funext a
  apply Fin.ext
  match a with
  | ⟨0, _⟩ => exact operandIdx_row d hoff hcoll hob hsim hivd idx e c hN
  | ⟨1, _⟩ => exact operandIdx_col d hoff hcoll hob hsim hivd idx e c

end

end Cert.Lib

end
-- ==== Proof.Bridge.lean ====
/-
  The two programs' arrays, joined.  With `w = [phiᵀ | psiᵀ]` (64 × 128) and `P = x · w` (50000 × 128):
  • columns 64 … 127 of `P` are `x · psiᵀ`, the reference's direct node term;
  • columns 0 … 63 of `P` are `x · phiᵀ`, and taking rows of a product is the product of the taken rows — a row gather
    commutes with a row-wise linear map, the same sum over the 64 input channels on both sides, no arithmetic law needed —,
    so gathering rows `src` of `x · phiᵀ` is the reference's `x[src] · phiᵀ`;
  • where every source node id is non-negative, the reference's wrap of negative ids (`id < 0 ? id + 50000 : id`) is the
    identity.
-/
import proofs.«413738_j53953379172480_3_alg».proof.Proof.Gen.ReferenceIdeal.Read
import proofs.«413738_j53953379172480_3_alg».proof.Proof.KernelArray
import proofs.«413738_j53953379172480_3_alg».proof.Proof.LibRowGather
import Idealize.ShloMosaic.Lib.Affine

noncomputable section

namespace Cert.Bridge

open Cert.ReferenceIdeal Idealize.ShloMosaic Idealize.ShloMosaic.ValueIdx
open Cert.KernelIdeal.Proj (G G_apply)
open scoped BigOperators

/-! ## The fused weight matrix -/

/-- `[phiᵀ | psiᵀ]`: the two weight matrices transposed and laid side by side. -/
abbrev fused (phi psi : FVec Ideal S64x64 .f32) (hT : S64x64.Transposes [1, 0] S64x64)
    (hC : Shape.Concatenates [S64x64, S64x64] (⟨2, ![64, 128]⟩ : Shape) 1) : FVec Ideal (⟨2, ![64, 128]⟩ : Shape) .f32 :=
  concatenate (⟨2, ![64, 128]⟩ : Shape) 1 [⟨S64x64, transpose S64x64 [1, 0] phi hT⟩, ⟨S64x64, transpose S64x64 [1, 0] psi hT⟩] hC

/-- A transposed 64 × 64 matrix at `(a, b)` is the matrix at `(b, a)`. -/
theorem transpose_at (w : FVec Ideal S64x64 .f32) (hT : S64x64.Transposes [1, 0] S64x64) (a b : Fin 64) :
    transpose S64x64 [1, 0] w hT (ix2 a b) = w (ix2 b a) :=
  transpose_apply [1, 0] w hT (ix2 a b) (ix2 b a) (fun c => by match c with | ⟨0, _⟩ => rfl | ⟨1, _⟩ => rfl)

/-- Its first 64 columns are `phiᵀ` … -/
theorem fused_lo (phi psi : FVec Ideal S64x64 .f32) (hT) (hC) (k o : Fin 64) :
    fused phi psi hT hC (ix2 k (⟨o.val, by omega⟩ : Fin 128)) = phi (ix2 o k) := by
  refine (concatenate_pair_apply_left (t := (⟨2, ![64, 128]⟩ : Shape)) (s₁ := S64x64) (s₂ := S64x64) (1 : Fin 2)
    (transpose S64x64 [1, 0] phi hT) (transpose S64x64 [1, 0] psi hT) hC (ix2 k (⟨o.val, by omega⟩ : Fin 128)) rfl (ix2 k o)
    (fun b => by match b with | ⟨0, _⟩ => rfl | ⟨1, _⟩ => rfl)).trans ?_
  exact transpose_at phi hT k o

/-- … and its last 64 are `psiᵀ`. -/
theorem fused_hi (phi psi : FVec Ideal S64x64 .f32) (hT) (hC) (k o : Fin 64) :
    fused phi psi hT hC (ix2 k (⟨64 + o.val, by omega⟩ : Fin 128)) = psi (ix2 o k) := by
  refine (concatenate_pair_apply_right (t := (⟨2, ![64, 128]⟩ : Shape)) (s₁ := S64x64) (s₂ := S64x64) (1 : Fin 2)
    (transpose S64x64 [1, 0] phi hT) (transpose S64x64 [1, 0] psi hT) hC (ix2 k (⟨64 + o.val, by omega⟩ : Fin 128)) rfl rfl (ix2 k o)
    (fun b hb => by match b with | ⟨0, _⟩ => rfl | ⟨1, _⟩ => exact absurd rfl hb)
    (by show o.val + 64 = 64 + o.val; omega)).trans ?_
  exact transpose_at psi hT k o

/-! ## The product's two halves -/

/-- Columns 64 … 127 of `x · [phiᵀ | psiᵀ]` are the reference's `x · psiᵀ`. -/
theorem hi_half (X : FVec Ideal S50000x64 .f32) (phi psi : FVec Ideal S64x64 .f32) (hT) (hC)
    (hS : (⟨2, ![50000, 128]⟩ : Shape).Slices ![0, 64] S50000x64) :
    extractStridedSlice S50000x64 ![0, 64] (G X (fused phi psi hT hC)) hS = Read.val_main_v18 (F := Ideal) X psi := by
  funext i
  obtain ⟨n, o, rfl⟩ : ∃ (n : Fin 50000) (o : Fin 64), i = ix2 n o := ⟨i 0, i 1, eq_ix2 i⟩
  rw [Read.val_main_v18_apply]
  refine (extractStridedSlice_apply ![0, 64] _ hS (ix2 n o) (ix2 n (⟨64 + o.val, by omega⟩ : Fin 128))
    (fun a => by match a with | ⟨0, _⟩ => (show n.val = 0 + n.val; omega) | ⟨1, _⟩ => rfl)).trans ?_
  rw [G_apply]
  refine Finset.sum_congr rfl fun k _ => ?_
  have e1 : Read.lidx_main_v18 (ix2 n o) k = ix2 n k := funext fun a => by match a with | ⟨0, _⟩ => rfl | ⟨1, _⟩ => rfl
  have e2 : Read.ridx_main_v18 (ix2 n o) k = ix2 o k := funext fun a => by match a with | ⟨0, _⟩ => rfl | ⟨1, _⟩ => rfl
  rw [fused_hi, e1, e2]

/-- Columns 0 … 63 of `x · [phiᵀ | psiᵀ]`, at `(n, o)`: `∑ k, x[n, k] · phi[o, k]`. -/
theorem lo_half_apply (X : FVec Ideal S50000x64 .f32) (phi psi : FVec Ideal S64x64 .f32) (hT) (hC)
    (hS : (⟨2, ![50000, 128]⟩ : Shape).Slices ![0, 0] S50000x64) (n : Fin 50000) (o : Fin 64) :
    extractStridedSlice S50000x64 ![0, 0] (G X (fused phi psi hT hC)) hS (ix2 n o) = ∑ k : Fin 64, X (ix2 n k) * phi (ix2 o k) := by
  refine (extractStridedSlice_apply ![0, 0] _ hS (ix2 n o) (ix2 n (⟨o.val, by omega⟩ : Fin 128))
    (fun a => by match a with | ⟨0, _⟩ => (show n.val = 0 + n.val; omega) | ⟨1, _⟩ => (show o.val = 0 + o.val; omega))).trans ?_
  rw [G_apply]
  refine Finset.sum_congr rfl fun k _ => ?_
  rw [fused_lo]

/-! ## The gather commutes with the projection -/

/-- Rows `src` of `x · phiᵀ` are `x[src] · phiᵀ`: the reference's message before scaling. -/
theorem gather_lo_half (X : FVec Ideal S50000x64 .f32) (x1 : IVec S2x800000 32) (phi psi : FVec Ideal S64x64 .f32) (hT) (hC)
    (hS : (⟨2, ![50000, 128]⟩ : Shape).Slices ![0, 0] S50000x64)
    (d : GatherDims S50000x64 S800000x1 S800000x64)
    (hoff : d.offsetDims = [1]) (hcoll : d.collapsedSliceDims = [0]) (hob : d.operandBatchingDims = [])
    (hsim : d.startIndexMap = [0]) (hivd : d.indexVectorDim = 1) :
    Host.gather d (extractStridedSlice S50000x64 ![0, 0] (G X (fused phi psi hT hC)) hS) (Read.val_main_v9 (F := Ideal) x1)
      = Read.val_main_v11 (F := Ideal) X x1 phi := by
  funext i
  obtain ⟨e, o, rfl⟩ : ∃ (e : Fin 800000) (o : Fin 64), i = ix2 e o := ⟨i 0, i 1, eq_ix2 i⟩
  rw [Read.val_main_v11_apply]
  refine (Cert.Lib.gather_rows d hoff hcoll hob hsim hivd _ _ e o (by decide)).trans ?_
  rw [lo_half_apply]
  refine Finset.sum_congr rfl fun k _ => ?_
  have e1 : Read.lidx_main_v11 (ix2 e o) k = ix2 e k := funext fun a => by match a with | ⟨0, _⟩ => rfl | ⟨1, _⟩ => rfl
  have e2 : Read.ridx_main_v11 (ix2 e o) k = ix2 o k := funext fun a => by match a with | ⟨0, _⟩ => rfl | ⟨1, _⟩ => rfl
  rw [e1, e2]
  unfold Read.val_main_v10
  rw [Cert.Lib.gather_rows gather_S50000x64_S800000x1_S800000x64_1_0_n_n_0_1_164 rfl rfl rfl rfl rfl _ _ e k (by decide)]

/-! ## Non-negative source ids are not wrapped -/

/-- Where every source id is `≥ 0`, `select (id < 0) (id + 50000) id` is `id`. -/
theorem wrap_id (x1 : IVec S2x800000 32)
    (hsrc : ∀ i, IntOp.cmpi .sge (Read.val_main_v1 (F := Ideal) x1 i) 0#32 = 1#1) :
    Read.val_main_v8 (F := Ideal) x1 = Read.val_main_v1 (F := Ideal) x1 := by
  funext i
  rw [Read.val_main_v8_apply, Read.val_main_v5_apply, Read.val_main_v4_apply, Read.val_main_c_apply]
  have h0 : IntOp.cmpi .slt (Read.val_main_v1 (F := Ideal) x1 i) 0#32 = 0#1 := by
    refine eq_zero_of_ne_one fun h => ?_
    have h1 := IntOp.cmpi_slt.1 h
    have h2 := IntOp.cmpi_sge.1 (hsrc i)
    omega
  rw [h0, select_zero]

end Cert.Bridge

end
-- ==== Proof.KernelTail.lean ====
/-
  The kernel's result.  After the region the host slices the product `P = x · [phiᵀ | psiᵀ]` into its two halves, takes
  the edge norms, gathers rows `src` of the left half, scales them by the norms, scatter-adds them at `dst` and adds the
  right half.  With the halves and the gather identified as the reference's own stages, what is left — the norm, the
  scaling, the scatter-add, the final sum — is the reference's text, operation for operation.
-/
import proofs.«413738_j53953379172480_3_alg».proof.Proof.Gen.KernelIdeal.Frame
import proofs.«413738_j53953379172480_3_alg».proof.Proof.KernelArray
import proofs.«413738_j53953379172480_3_alg».proof.Proof.Bridge

set_option maxRecDepth 16384

noncomputable section

namespace Cert.KernelIdeal.Proj

open Cert.KernelIdeal Cert.KernelIdeal.Gen Idealize.ShloMosaic Idealize.ShloMosaic.TcCoe Idealize.SL.Sem
open Idealize.ShloMosaic.StableHlo Idealize.ShloMosaic.ValueIdx

/-! ## The lines after the region, as one function of what they read -/

/-- The host lines after the region as ONE function of the three arrays they read: the product `P`, the edge ids and the
    edge attributes.  `P[:, 64:] + scatter_add(dst, P[:, :64][src] · ‖edge_attr‖)`. -/
def tail (P : FVec Ideal S50000x128 .f32) (ids : IVec S2x800000 32) (attrs : FVec Ideal S800000x3 .f32) : FVec Ideal S50000x64 .f32 :=
  addf
    (extractStridedSlice S50000x64 ![0, 64] P slices_S50000x128_S50000x64_0_64)
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0
        (shapeCast S800000 (extractStridedSlice S1x800000 ![1, 0] ids slices_S2x800000_S1x800000_1_0) shapeCasts_S1x800000_S800000))
      (mulf
        (Host.gather gather_S50000x64_S800000x1_S800000x64_1_0_n_n_0_1_164
          (extractStridedSlice S50000x64 ![0, 0] P slices_S50000x128_S50000x64_0_0)
          (broadcastInDim S800000x1 ![0] bcast_S800000_S800000x1_0
            (shapeCast S800000 (extractStridedSlice S1x800000 ![0, 0] ids slices_S2x800000_S1x800000_0_0) shapeCasts_S1x800000_S800000)))
        (broadcastInDim S800000x64 ![0, 1] bcast_S800000x1_S800000x64_0_1
          (Host.sqrt (F := Ideal)
            (broadcastInDim S800000x1 ![0] bcast_S800000_S800000x1_0
              (Host.reduceAdd (F := Ideal) (mulf attrs attrs) (constant (F := Ideal) S_ .f32 0x00000000#32) reducesTo_S800000x3_S800000_d1 h_S_))))))

/-- With `P` the whole product and every source id non-negative, that function is the reference's last stage. -/
theorem tail_product (X : FVec Ideal S50000x64 .f32) (ids : IVec S2x800000 32) (attrs : FVec Ideal S800000x3 .f32)
    (phi psi : FVec Ideal S64x64 .f32)
    (hsrc : ∀ i, IntOp.cmpi .sge (Cert.ReferenceIdeal.Read.val_main_v1 (F := Ideal) ids i) 0#32 = 1#1) :
    tail (G X (Cert.Bridge.fused phi psi transposes_S64x64_S64x64_1_0 concatenates_S64x64_S64x64_S64x128_d1)) ids attrs
      = Cert.ReferenceIdeal.Read.val_main_v19 (F := Ideal) X ids attrs phi psi := by
  unfold tail
  have hidx : broadcastInDim S800000x1 ![0] bcast_S800000_S800000x1_0
      (shapeCast S800000 (extractStridedSlice S1x800000 ![0, 0] ids slices_S2x800000_S1x800000_0_0) shapeCasts_S1x800000_S800000)
      = Cert.ReferenceIdeal.Read.val_main_v9 (F := Ideal) ids := by
    unfold Cert.ReferenceIdeal.Read.val_main_v9
    rw [Cert.Bridge.wrap_id ids hsrc]
    rfl
  rw [hidx, Cert.Bridge.hi_half X phi psi _ _ slices_S50000x128_S50000x64_0_64,
    Cert.Bridge.gather_lo_half X ids phi psi _ _ slices_S50000x128_S50000x64_0_0 gather_S50000x64_S800000x1_S800000x64_1_0_n_n_0_1_164 rfl rfl rfl rfl rfl]
  rfl

/-! ## Contents at a value's type and at its buffer's type

A host line of a called function reads and writes its buffers through the value's type; the two types are one, so the
transports are identities. -/

/-- There and back. -/
theorem ofBuf_toBuf {T : BufTy} (x : TRef sig T) (v : T.Contents (Elt Ideal)) : x.ofBuf (x.toBuf v) = v := by
  obtain ⟨r, rfl, h2, h3⟩ := x
  rfl

theorem toBuf_gathered (h1 : main_v11.ty = ⟨S800000x64, .f32⟩) (h2 : main_v11.space ≠ .host) (h3 : main_v11.isScoped = false)
    (v : (⟨S800000x64, .f32⟩ : BufTy).Contents (Elt Ideal)) :
    (TRef.of main_v11 h1 h2 h3 : TRef sig ⟨S800000x64, .f32⟩).toBuf v = v := rfl
theorem toBuf_norm (h1 : main_v10.ty = ⟨S800000x1, .f32⟩) (h2 : main_v10.space ≠ .host) (h3 : main_v10.isScoped = false)
    (v : (⟨S800000x1, .f32⟩ : BufTy).Contents (Elt Ideal)) :
    (TRef.of main_v10 h1 h2 h3 : TRef sig ⟨S800000x1, .f32⟩).toBuf v = v := rfl
theorem ofBuf_lo (h1 : main_v4.ty = ⟨S50000x64, .f32⟩) (h2 : main_v4.space ≠ .host) (h3 : main_v4.isScoped = false)
    (v : main_v4.ty.Contents (Elt Ideal)) :
    (TRef.of main_v4 h1 h2 h3 : TRef sig ⟨S50000x64, .f32⟩).ofBuf v = v := rfl
theorem ofBuf_src (h1 : main_v7.ty = ⟨S800000, .i32⟩) (h2 : main_v7.space ≠ .host) (h3 : main_v7.isScoped = false)
    (v : main_v7.ty.Contents (Elt Ideal)) :
    (TRef.of main_v7 h1 h2 h3 : TRef sig ⟨S800000, .i32⟩).ofBuf v = v := rfl
theorem ofBuf_attrs (h1 : main_arg2.ty = ⟨S800000x3, .f32⟩) (h2 : main_arg2.space ≠ .host) (h3 : main_arg2.isScoped = false)
    (v : main_arg2.ty.Contents (Elt Ideal)) :
    (TRef.of main_arg2 h1 h2 h3 : TRef sig ⟨S800000x3, .f32⟩).ofBuf v = v := rfl

variable (m : (ℓ : Loc nD τ sig) → Buf (Elt Ideal) ℓ) (ρ : Dev nD → PrngReg)

/-! ## The three arrays the lines after the region read -/

/-- The weight window's array as the region finds it: the two transposed weight matrices side by side. -/
theorem wmat (c : Dev nD) : V m c main_v2
    = Cert.Bridge.fused (m ((c : Thread nD τ).loc main_arg3)) (m ((c : Thread nD τ).loc main_arg4)) transposes_S64x64_S64x64_1_0 concatenates_S64x64_S64x64_S64x128_d1 := by
  dsimp only [Gen.V, Gen.V0]
  simp only [hostOps0, List.flatten_cons, List.flatten_nil, List.append_nil, List.cons_append, List.nil_append]
  after_results

/-- The result array after the region, over the launch contents: the whole product. -/
theorem out_eq (c : Dev nD) :
    Pipeline.withArrays (cfgs 0).spec c (V0 m c) (fun w => (dats m 0 c).arrAt w (cfgs 0).N) (Proc.devRef .tc main_v3)
      = G (m ((c : Thread nD τ).loc main_arg0))
          (Cert.Bridge.fused (m ((c : Thread nD τ).loc main_arg3)) (m ((c : Thread nD τ).loc main_arg4)) transposes_S64x64_S64x64_1_0 concatenates_S64x64_S64x64_S64x128_d1) :=
  (Pipeline.withArrays_arr spec0 launch0.win.arr_inj c _ _ 2).trans ((final m c).trans (by rw [V_main_arg0, wmat]))

/-- The edge ids are no array of the pipeline and no host line before the region writes them. -/
theorem ids_eq (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans (V_main_arg1 m c)

/-- Nor the edge attributes. -/
theorem attr_eq (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)

/-! ## The result buffer after the last line -/

set_option maxHeartbeats 400000 in
/-- The result buffer after the last line is `tail` of the three arrays as the region leaves them: each host line's
    result is its function of its operands' contents, and a called function's lines read and write at their own buffers'
    types, which are the values' types. -/
theorem tail_read (c : Dev nD) :
    Pipeline.afterTail₀ cfgs (dats m) 0 (V0 m) [hostOps1, hostOps1_1, hostOps1_2, hostOps1_3] c main_v17
      = tail (Pipeline.withArrays (cfgs 0).spec c (V0 m c) (fun w => (dats m 0 c).arrAt w (cfgs 0).N) (Proc.devRef .tc main_v3))
          (Pipeline.withArrays (cfgs 0).spec c (V0 m c) (fun w => (dats m 0 c).arrAt w (cfgs 0).N) (Proc.devRef .tc main_arg1))
          (Pipeline.withArrays (cfgs 0).spec c (V0 m c) (fun w => (dats m 0 c).arrAt w (cfgs 0).N) (Proc.devRef .tc main_arg2)) := by
  unfold Pipeline.afterTail₀
  simp only [hostOps1, hostOps1_1, hostOps1_2, hostOps1_3, List.flatten_cons, List.flatten_nil, List.append_nil, List.cons_append, List.nil_append]
  after_results_simp
  generalize Pipeline.withArrays (cfgs 0).spec c (V0 m c) (fun w => (dats m 0 c).arrAt w (cfgs 0).N) (Proc.devRef .tc main_v3) = P
  generalize Pipeline.withArrays (cfgs 0).spec c (V0 m c) (fun w => (dats m 0 c).arrAt w (cfgs 0).N) (Proc.devRef .tc main_arg1) = I
  generalize Pipeline.withArrays (cfgs 0).spec c (V0 m c) (fun w => (dats m 0 c).arrAt w (cfgs 0).N) (Proc.devRef .tc main_arg2) = A
  repeat rw [ofBuf_toBuf]
  rw [toBuf_gathered rfl (by decide) rfl, toBuf_norm rfl (by decide) rfl, ofBuf_lo rfl (by decide) rfl,
    ofBuf_src rfl (by decide) rfl, ofBuf_attrs rfl (by decide) rfl]
  rfl

/-! ## The run, read -/

/-- What the lines after the region leave in the result buffer: the reference's last stage of the launch contents. -/
theorem tail_eq (c : Dev nD)
    (hsrc : ∀ i, IntOp.cmpi .sge (Cert.ReferenceIdeal.Read.val_main_v1 (F := Ideal) (m ((c : Thread nD τ).loc main_arg1)) i) 0#32 = 1#1) :
    Pipeline.afterTail₀ cfgs (dats m) 0 (V0 m) [hostOps1, hostOps1_1, hostOps1_2, hostOps1_3] c main_v17
      = Cert.ReferenceIdeal.Read.val_main_v19 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_read, out_eq, ids_eq, attr_eq]
  exact tail_product _ _ _ _ _ hsrc

/-- The frame run re-posted: where every source id is non-negative, the result buffer ends at the reference's last stage
    of the launch contents, and the five arguments end unchanged. -/
theorem run (hsrc : ∀ (c : Dev nD) i, IntOp.cmpi .sge (Cert.ReferenceIdeal.Read.val_main_v1 (F := Ideal) (m ((c : Thread nD τ).loc main_arg1)) i) 0#32 = 1#1) :
    θ_run defs (onTc (τ := τ) (main (F := Ideal))) ⟨m, fun _ => 0, ρ⟩ fun r => ∀ c : Dev nD,
      r.2.mem ((c : Thread nD τ).loc main_v17)
        = Cert.ReferenceIdeal.Read.val_main_v19 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).2 main_v17 (Pipeline.mem_restRefs_of main_v17 (by decide) (by decide))).trans (tail_eq m c (hsrc c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Proj

end
-- ==== Proof.PreSrc.lean ====
/-
  What the precondition says of the source node ids.  Its last conjunct is `all(edge_index[0] >= 0)`: a reduce by `and`
  over the 800000 signed comparisons of row 0 of `edge_index` with zero.  The whole predicate being 1, that conjunct is 1,
  so every comparison is: each source id, read signed, is at least zero.  Row 0 is taken by the same slice and reshape
  the reference takes it by.
-/
import proofs.«413738_j53953379172480_3_alg».proof.Pre_finite_inputs
import proofs.«413738_j53953379172480_3_alg».proof.Proof.Gen.Pre_finite_inputs
import proofs.«413738_j53953379172480_3_alg».proof.Proof.Gen.ReferenceIdeal.Read
import Idealize.ShloMosaic.Lib.ReduceAll
import Idealize.ShloMosaic.Lib.Affine

noncomputable section

namespace Cert.Bridge

open Idealize.ShloMosaic Idealize.ShloMosaic.ValueIdx

instance : Subsingleton Cert.Pre_finite_inputs.S_.Idx := ⟨fun a b => funext fun d => d.elim0⟩

/-- Under the precondition every source node id is non-negative. -/
theorem src_nonneg (x0 : FVec Ideal Cert.Pre_finite_inputs.S50000x64 .f32) (x1 : IVec Cert.Pre_finite_inputs.S2x800000 32)
    (x2 : FVec Ideal Cert.Pre_finite_inputs.S800000x3 .f32) (x3 x4 : FVec Ideal Cert.Pre_finite_inputs.S64x64 .f32)
    (h : Cert.Pre_finite_inputs.fn (F := Ideal) x0 x1 x2 x3 x4 = fun _ => 1#1) (i : Cert.ReferenceIdeal.S800000.Idx) :
    IntOp.cmpi .sge (Cert.ReferenceIdeal.Read.val_main_v1 (F := Ideal) x1 i) 0#32 = 1#1 := by
  have h0 := congrFun h ix0
  dsimp only [Cert.Pre_finite_inputs.fn, Cert.Pre_finite_inputs.fn_part1] at h0
  have h1 := (IntOp.andi_eq_one.1 h0).2
  exact Host.reduce_andi_all _ _ _ _ ix0 h1 i

end Cert.Bridge

end
-- ==== Proof.lean ====
/-
  A graph message-passing layer: `out = x · psiᵀ + scatter_add(dst, (x · phiᵀ)[src] · ‖edge_attr‖)`.

  The kernel projects the 50000 nodes once, through the fused 64 × 128 matrix `[phiᵀ | psiᵀ]`, in ten row blocks, and only
  then gathers rows of the left half by source node; the reference gathers rows of `x` first and projects the 800000
  gathered rows.  Over the extended reals the two agree entry by entry, because a row gather commutes with a row-wise
  linear map (both sides are the same sum over the 64 input channels, so no arithmetic law and no finiteness is used),
  and the remaining lines — the edge norm, the scaling, the scatter-add by destination node and the final sum — are
  the same operations of the same operands in both programs.

  One difference is real: the kernel's `take(…, mode="clip")` clamps a negative source id to row 0, while the reference's
  `x[src]` wraps it (`id + 50000`).  The statement therefore carries the evident domain of a node index,
  `edge_index[0] ≥ 0`; with it the wrap is the identity and both gathers read the same clamped row.  Nothing is asked of
  the destination ids (both programs scatter by the same rule) nor of an upper bound (both gathers clamp alike).

  The three frames are the generated ones (the reference's is its generated run with the result dropped); the
  idealization rewrote no operation, so `preserves` is trivial.
-/
import proofs.«413738_j53953379172480_3_alg».proof.Defs
import proofs.«413738_j53953379172480_3_alg».proof.Proof.Gen.Kernel
import proofs.«413738_j53953379172480_3_alg».proof.Proof.Gen.Kernel.Skeleton
import proofs.«413738_j53953379172480_3_alg».proof.Proof.Gen.Kernel.Launch
import proofs.«413738_j53953379172480_3_alg».proof.Proof.Gen.Kernel.Points
import proofs.«413738_j53953379172480_3_alg».proof.Proof.Gen.Kernel.Frame
import proofs.«413738_j53953379172480_3_alg».proof.Proof.Gen.KernelIdeal
import proofs.«413738_j53953379172480_3_alg».proof.Proof.Gen.KernelIdeal.Skeleton
import proofs.«413738_j53953379172480_3_alg».proof.Proof.Gen.KernelIdeal.Launch
import proofs.«413738_j53953379172480_3_alg».proof.Proof.Gen.KernelIdeal.Points
import proofs.«413738_j53953379172480_3_alg».proof.Proof.Gen.KernelIdeal.Frame
import proofs.«413738_j53953379172480_3_alg».proof.Proof.Gen.ReferenceIdeal
import proofs.«413738_j53953379172480_3_alg».proof.Proof.Gen.ReferenceIdeal.Run
import proofs.«413738_j53953379172480_3_alg».proof.Proof.Gen.ReferenceIdeal.Read
import proofs.«413738_j53953379172480_3_alg».proof.Proof.Gen.Pre_finite_inputs
import proofs.«413738_j53953379172480_3_alg».proof.Proof.KernelTail
import proofs.«413738_j53953379172480_3_alg».proof.Proof.PreSrc
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its generated run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, under the precondition, both programs end with the reference's last
    stage of the arguments in their result buffers. -/
theorem algebraic : Cert.algebraic_KernelIdeal_ReferenceIdeal := by
  intro m ρ m' ρ' hpre hagree
  have hsrc := fun (c : Dev Cert.KernelIdeal.nD) i => Cert.Bridge.src_nonneg _ _ _ _ _ (hpre c) i
  refine ⟨_, Cert.KernelIdeal.Proj.run m ρ hsrc, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
